-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S4096x256 : Shape := ⟨2, ![4096, 256]⟩
abbrev S256 : Shape := ⟨1, ![256]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S256x4096 : S_.BroadcastsInDim S256x4096 (![] : Fin 0 → Fin S256x4096.rank)
  reducesTo_S256x4096_S_d0_1 : S256x4096.ReducesTo [0, 1] S_
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S4096x256 .f32) (main_arg5 : FVec F S4096 .f32) (main_arg6 : FVec F S256 .f32) (main_v13 : IVec S_ 1) (main_v16 : IVec S256x4096 1) : IVec S_ 1 :=
  let main_c_5 : IVec S_ 1 := constantI S_ 1 1#1
  let main_v17 : IVec S_ 1 := (fun x v => Host.reduce IntOp.andi x v reducesTo_S256x4096_S_d0_1 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096 .f32) (main_arg3 : FVec F S256x4096 .f32) (main_arg4 : FVec F S4096x256 .f32) (main_arg5 : FVec F S4096 .f32) (main_arg6 : FVec F S256 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S256x4096 .f32 := Host.absf main_arg3
  let main_cst_4 : FVec F S_ .f32 := constant S_ .f32 0x7F800000#32
  let main_v15 : FVec F S256x4096 .f32 := broadcastInDim S256x4096 ![] bcast_S_S256x4096 main_cst_4
  let main_v16 : IVec S256x4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S4096x256 : Shape := ⟨2, ![4096, 256]⟩
abbrev S256 : Shape := ⟨1, ![256]⟩
abbrev S1x4096 : Shape := ⟨2, ![1, 4096]⟩
abbrev S1x256 : Shape := ⟨2, ![1, 256]⟩
abbrev S8192x256 : Shape := ⟨2, ![8192, 256]⟩
abbrev S512x4096 : Shape := ⟨2, ![512, 4096]⟩
abbrev S512x256 : Shape := ⟨2, ![512, 256]⟩
abbrev S2048x4096 : Shape := ⟨2, ![2048, 4096]⟩
abbrev S256x256 : Shape := ⟨2, ![256, 256]⟩
abbrev S2048x256 : Shape := ⟨2, ![2048, 256]⟩
abbrev S1x2048 : Shape := ⟨2, ![1, 2048]⟩
abbrev S256x2048 : Shape := ⟨2, ![256, 2048]⟩

abbrev nBuf : Space → Nat
  | .hbm => 15
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S256x4096, .f32⟩
  | .hbm, ⟨4, _⟩ => ⟨S4096x256, .f32⟩
  | .hbm, ⟨5, _⟩ => ⟨S4096, .f32⟩
  | .hbm, ⟨6, _⟩ => ⟨S256, .f32⟩
  | .hbm, ⟨7, _⟩ => ⟨S4096x4096, .bf16⟩
  | .hbm, ⟨8, _⟩ => ⟨S256x4096, .bf16⟩
  | .hbm, ⟨9, _⟩ => ⟨S4096x256, .bf16⟩
  | .hbm, ⟨10, _⟩ => ⟨S1x4096, .f32⟩
  | .hbm, ⟨11, _⟩ => ⟨S1x4096, .f32⟩
  | .hbm, ⟨12, _⟩ => ⟨S1x256, .f32⟩
  | .hbm, ⟨13, _⟩ => ⟨S8192x256, .f32⟩
  | .hbm, ⟨14, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S256x4096, .bf16⟩
  | .local _ .vmem, ⟨3, _⟩ => ⟨S1x256, .f32⟩
  | .local _ .vmem, ⟨4, _⟩ => ⟨S512x256, .f32⟩
  | .local _ .vmem, ⟨5, _⟩ => ⟨S512x256, .f32⟩
  | .local _ .vmem, ⟨6, _⟩ => ⟨S256x4096, .f32⟩
  | .local _ .vmem, ⟨7, _⟩ => ⟨S256x4096, .f32⟩
  | .local _ .vmem, ⟨8, _⟩ => ⟨S2048x4096, .bf16⟩
  | .local _ .vmem, ⟨9, _⟩ => ⟨S256x256, .f32⟩
  | .local _ .vmem, ⟨10, _⟩ => ⟨S256x256, .f32⟩
  | .local _ .vmem, ⟨11, _⟩ => ⟨S2048x256, .bf16⟩
  | .local _ .vmem, ⟨12, _⟩ => ⟨S1x2048, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2048x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S2048x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  bitsLt_bf16_f32 : FTy.bits .bf16 < FTy.bits .f32
  shapeCasts_S4096_S1x4096 : S4096.ShapeCasts S1x4096
  shapeCasts_S256_S1x256 : S256.ShapeCasts S1x256
  inb_S512x4096_S512x4096_0_0 : ∀ a, (![0, 0] : Fin 2 → Nat) a + S512x4096.size a ≤ S512x4096.size a
  h_S512x4096 : 0 < S512x4096.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  dot_S512x4096_S256x4096_S512x256_1_1_0_0_n_n_wf : DotDims.WF S512x4096 S256x4096 S512x256 [1] [1] [0] [0] [] []
  dot_S256x4096_S2048x4096_S256x2048_1_1_0_0_n_n_wf : DotDims.WF S256x4096 S2048x4096 S256x2048 [1] [1] [0] [0] [] []
  dot_S256x256_S2048x256_S256x2048_1_1_0_0_n_n_wf : DotDims.WF S256x256 S2048x256 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x4096.size a
  hwx0_1 : ∀ i : grid0.Coords, EltTy.bits .bf16 = 32 ∨ (Rect.block (s := S256x4096) S256x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x256.size a
  hwx0_3 : ∀ i : grid0.Coords, EltTy.bits .f32 = 32 ∨ (Rect.block (s := S8192x256) S512x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x4096.size a ≤ S4096x4096.size a
  hwx1_1 : ∀ i : grid1.Coords, EltTy.bits .bf16 = 32 ∨ (Rect.block (s := S4096x4096) S2048x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S8192x256.size a
  hwx1_2 : ∀ i : grid1.Coords, EltTy.bits .f32 = 32 ∨ (Rect.block (s := S8192x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S4096x256.size a
  hwx1_3 : ∀ i : grid1.Coords, EltTy.bits .bf16 = 32 ∨ (Rect.block (s := S4096x256) S2048x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x4096.size a
  hwx1_4 : ∀ i : grid1.Coords, EltTy.bits .f32 = 32 ∨ (Rect.block (s := S1x4096) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x4096.size a
  hwx1_5 : ∀ i : grid1.Coords, EltTy.bits .f32 = 32 ∨ (Rect.block (s := S1x4096) S1x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x2048.size a ≤ S8192x4096.size a
  hwx1_6 : ∀ i : grid1.Coords, EltTy.bits .f32 = 32 ∨ (Rect.block (s := S8192x4096) S256x2048.size (cc1_transform_6 i) (hinb1_6 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S256x4096_S2048x4096_S256x2048_1_1_0_0_n_n : DotDims S256x4096 S2048x4096 S256x2048 where
  lhsContracting := [1]
  rhsContracting := [1]
  lhsNonContracting := [0]
  rhsNonContracting := [0]
  lhsBatch := []
  rhsBatch := []
  wf := dot_S256x4096_S2048x4096_S256x2048_1_1_0_0_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S2048x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S256x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S4096x256 : Shape := ⟨2, ![4096, 256]⟩
abbrev S256 : Shape := ⟨1, ![256]⟩
abbrev S1x4096 : Shape := ⟨2, ![1, 4096]⟩
abbrev S8192x256 : Shape := ⟨2, ![8192, 256]⟩
abbrev S1x256 : Shape := ⟨2, ![1, 256]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S256x4096, .f32⟩
  | .hbm, ⟨4, _⟩ => ⟨S4096x256, .f32⟩
  | .hbm, ⟨5, _⟩ => ⟨S4096, .f32⟩
  | .hbm, ⟨6, _⟩ => ⟨S256, .f32⟩
  | .hbm, ⟨7, _⟩ => ⟨S4096x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S4096x256, .f32⟩
  | .hbm, ⟨13, _⟩ => ⟨S8192x256, .f32⟩
  | .hbm, ⟨14, _⟩ => ⟨S1x256, .f32⟩
  | .hbm, ⟨15, _⟩ => ⟨S8192x256, .f32⟩
  | .hbm, ⟨16, _⟩ => ⟨S8192x256, .f32⟩
  | .hbm, ⟨17, _⟩ => ⟨S256x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S256x4096_S4096x256_1_0 : S256x4096.Transposes [1, 0] S4096x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S4096x256_S256x4096_1_0 : S4096x256.Transposes [1, 0] S256x4096
  dot_S8192x4096_S4096x4096_S8192x4096_1_0_0_1_n_n_wf : DotDims.WF S8192x4096 S4096x4096 S8192x4096 [1] [0] [0] [1] [] []
  dot_S8192x4096_S4096x256_S8192x256_1_0_0_1_n_n_wf : DotDims.WF S8192x4096 S4096x256 S8192x256 [1] [0] [0] [1] [] []
  dot_S8192x256_S256x4096_S8192x4096_1_0_0_1_n_n_wf : DotDims.WF S8192x256 S256x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x256_S8192x256_1_0_0_1_n_n : DotDims S8192x4096 S4096x256 S8192x256 where
  lhsContracting := [1]
  rhsContracting := [0]
  lhsNonContracting := [0]
  rhsNonContracting := [1]
  lhsBatch := []
  rhsBatch := []
  wf := dot_S8192x4096_S4096x256_S8192x256_1_0_0_1_n_n_wf
def dot_S8192x256_S256x4096_S8192x4096_1_0_0_1_n_n : DotDims S8192x256 S256x4096 S8192x4096 where
  lhsContracting := [1]
  rhsContracting := [0]
  lhsNonContracting := [0]
  rhsNonContracting := [1]
  lhsBatch := []
  rhsBatch := []
  wf := dot_S8192x256_S256x4096_S8192x4096_1_0_0_1_n_n_wf

class Facts : Prop extends Facts₀ where

variable [Facts]
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.Payload.lean ====
/-
  The two kernel bodies read at an entry, on the extended reals.

  The first body multiplies a block of 512 rows of x with the rows of A on the matrix unit, into a zero accumulator,
  and scales column r by entry r of the one-row d. The second does the same with a block of 256 rows of x against
  2048 rows of W, adds the one-row bias, and adds the product of the matching rows of the hidden array with 2048
  rows of B, scaled by the one-row b. Narrowing an operand to the short float format changes nothing here, and a
  cast of a block to its own shape is the identity; so entry (p, q) of each block is the sum over the contracted
  coordinate of the products of the operands' entries, combined as the body's operations say.
-/
import proofs.«108059_j52836687675852_1_alg».proof.Proof.Gen.KernelIdeal.Skeleton
import proofs.«108059_j52836687675852_1_alg».proof.Proof.LibRowLayers

noncomputable section

open scoped BigOperators

namespace Cert.KernelIdeal.Payload

open Idealize.ShloMosaic Idealize.ShloMosaic.ValueIdx Cert.KernelIdeal Cert.KernelIdeal.Gen

/-- The three products of the two bodies contract the last axis of both operands. -/
theorem dotA_eq : dot_S512x4096_S256x4096_S512x256_1_1_0_0_n_n = DotDims.transposedRhs 512 4096 256 := rfl
theorem dotW_eq : dot_S256x4096_S2048x4096_S256x2048_1_1_0_0_n_n = DotDims.transposedRhs 256 4096 2048 := rfl
theorem dotB_eq : dot_S256x256_S2048x256_S256x2048_1_1_0_0_n_n = DotDims.transposedRhs 256 256 2048 := rfl

/-- Entry (p, r) of the first body's block: row p of the block of x against row r of A, times entry r of d. -/
theorem hidden_block_apply (x : FVec Ideal S512x4096 .f32) (a : FVec Ideal S256x4096 .bf16) (d : FVec Ideal S1x256 .f32)
    (p : Fin 512) (r : Fin 256) :
    k0_pay1 (F := Ideal) x a d (ix2 p r) = (∑ k : Fin 4096, x (ix2 p k) * a (ix2 r k)) * d (ix2 (0 : Fin 1) r) := by
  unfold k0_pay1
  rw [mulf_apply, dotA_eq, shapeCast_self, shapeCast_self, RowLayers.matmulT_apply, broadcastTo_1b_ab_apply]
  rfl

/-- Entry (p, q) of the second body's block: the affine entry plus the scaled projection of row p of the block of the
    hidden array onto row q of the block of B. -/
theorem out_block_apply (x : FVec Ideal S256x4096 .f32) (w : FVec Ideal S2048x4096 .bf16) (h : FVec Ideal S256x256 .f32)
    (bm : FVec Ideal S2048x256 .bf16) (bv : FVec Ideal S1x2048 .f32) (bias : FVec Ideal S1x2048 .f32)
    (p : Fin 256) (q : Fin 2048) :
    k1_pay1 (F := Ideal) x w h bm bv bias (ix2 p q)
      = ((∑ k : Fin 4096, x (ix2 p k) * w (ix2 q k)) + bias (ix2 (0 : Fin 1) q))
        + (∑ r : Fin 256, h (ix2 p r) * bm (ix2 q r)) * bv (ix2 (0 : Fin 1) q) := by
  unfold k1_pay1
  rw [addf_apply, addf_apply, mulf_apply, dotW_eq, dotB_eq, shapeCast_self, shapeCast_self, shapeCast_self,
    shapeCast_self, shapeCast_self, RowLayers.matmulT_apply, RowLayers.matmulT_apply, broadcastTo_1b_ab_apply,
    broadcastTo_1b_ab_apply]
  rfl

end Cert.KernelIdeal.Payload

end
-- ==== Proof.Spec.lean ====
/-
  The adapter layer as one function of its arrays, entry by entry, on the extended reals.

  A frozen affine layer x ↦ x·Wᵀ + bias is corrected by a low-rank term: the rows of x are projected onto the
  rows of A and each coordinate r of the projection is scaled by d r, which gives the hidden array h; h is then
  projected onto the rows of B and each coordinate q of that projection is scaled by b q. Entry (p, q) of the
  result is

      (Σₖ x p k · W q k  +  bias q)  +  (Σᵣ h p r · B q r) · b q,     h p r = (Σₖ x p k · A r k) · d r.

  The three vectors enter as matrices of one row, the form in which both programs hold them when they are used.
  Only sums and products occur, associated as written, so no hypothesis on the entries is needed.
-/
import Idealize.ShloMosaic.PureOps.Ideal
import Idealize.ShloMosaic.Lib.ValueIdx
import Idealize.ShloMosaic.Lib.ValueLayout

noncomputable section

open scoped BigOperators

namespace Cert.Adapter

open Idealize.ShloMosaic Idealize.ShloMosaic.ValueIdx

/-- A matrix of a rows and b columns of extended reals. -/
abbrev Mat (a b : ℕ) := (⟨2, ![a, b]⟩ : Shape).Idx → EReal

/-- A vector of n extended reals. -/
abbrev Vect (n : ℕ) := (⟨1, ![n]⟩ : Shape).Idx → EReal

/-- Entry (p, r) of the hidden array: row p of x against row r of A, scaled by entry r of the one-row d. -/
def hiddenAt (x : Mat 8192 4096) (A : Mat 256 4096) (d : Mat 1 256) (p : Fin 8192) (r : Fin 256) : EReal :=
  (∑ k : Fin 4096, x (ix2 p k) * A (ix2 r k)) * d (ix2 (0 : Fin 1) r)

/-- The hidden array. -/
def hidden (x : Mat 8192 4096) (A : Mat 256 4096) (d : Mat 1 256) : Mat 8192 256 :=
  fun i => hiddenAt x A d (i 0) (i 1)

theorem hidden_apply (x : Mat 8192 4096) (A : Mat 256 4096) (d : Mat 1 256) (p : Fin 8192) (r : Fin 256) :
    hidden x A d (ix2 p r) = hiddenAt x A d p r := rfl

/-- Entry (p, q) of the result from a given hidden array h: the affine layer's entry plus the scaled projection of
    row p of h onto row q of B. -/
def outAt (x : Mat 8192 4096) (W : Mat 4096 4096) (h : Mat 8192 256) (B : Mat 4096 256) (bias b : Mat 1 4096)
    (p : Fin 8192) (q : Fin 4096) : EReal :=
  ((∑ k : Fin 4096, x (ix2 p k) * W (ix2 q k)) + bias (ix2 (0 : Fin 1) q))
    + (∑ r : Fin 256, h (ix2 p r) * B (ix2 q r)) * b (ix2 (0 : Fin 1) q)

/-- The result array from a given hidden array. -/
def out (x : Mat 8192 4096) (W : Mat 4096 4096) (h : Mat 8192 256) (B : Mat 4096 256) (bias b : Mat 1 4096) :
    Mat 8192 4096 :=
  fun i => outAt x W h B bias b (i 0) (i 1)

theorem out_apply (x : Mat 8192 4096) (W : Mat 4096 4096) (h : Mat 8192 256) (B : Mat 4096 256) (bias b : Mat 1 4096)
    (p : Fin 8192) (q : Fin 4096) : out x W h B bias b (ix2 p q) = outAt x W h B bias b p q := rfl

/-- A vector as a matrix of one row. -/
def asRow {n : ℕ} (v : Vect n) : Mat 1 n := fun i => v (ix1 (i 1))

theorem asRow_apply {n : ℕ} (v : Vect n) (u : Fin 1) (j : Fin n) : asRow v (ix2 u j) = v (ix1 j) := rfl

/-- The whole layer from the seven arrays as they are given. -/
def layer (x : Mat 8192 4096) (W : Mat 4096 4096) (bias : Vect 4096) (A : Mat 256 4096) (B : Mat 4096 256)
    (b : Vect 4096) (d : Vect 256) : Mat 8192 4096 :=
  out x W (hidden x A (asRow d)) B (asRow bias) (asRow b)

/-- A vector cast to one row is that vector as a matrix of one row. -/
theorem shapeCast_eq_asRow {n : ℕ} (v : Vect n) (h : (⟨1, ![n]⟩ : Shape).ShapeCasts ⟨2, ![1, n]⟩) :
    shapeCast ⟨2, ![1, n]⟩ v h = asRow v := by
  funext i
  obtain ⟨u, j, rfl⟩ : ∃ (u : Fin 1) (j : Fin n), i = ix2 u j := ⟨i 0, i 1, eq_ix2 i⟩
  rw [shapeCast_a_1a_apply, asRow_apply]

end Cert.Adapter

end
-- ==== Proof.Region0.lean ====
/-
  The first kernel region: the array it leaves is the hidden array of the arrays it finds.

  The region walks the 8192 rows of x in 16 blocks of 512 rows. At block t it reads rows 512·t … 512·t + 511 of x,
  all of A and all of the one-row d, and writes back rows 512·t … 512·t + 511 of its output. Entry (p, r) of what it
  writes is row p of the block of x against row r of A, times entry r of d: entry (512·t + p, r) of the hidden array.
  The 16 blocks cover every row, so after the region the output array is the hidden array.
-/
import proofs.«108059_j52836687675852_1_alg».proof.Proof.Gen.KernelIdeal.Frame
import proofs.«108059_j52836687675852_1_alg».proof.Proof.Payload
import proofs.«108059_j52836687675852_1_alg».proof.Proof.Spec
import Idealize.ShloMosaic.Lib.Pipeline.Value

set_option maxRecDepth 16384

noncomputable section

open scoped BigOperators

namespace Cert.KernelIdeal.HiddenRegion

open Idealize.ShloMosaic Idealize.ShloMosaic.TcCoe Idealize.ShloMosaic.ValueIdx Idealize.SL.Sem
open Cert.KernelIdeal Cert.KernelIdeal.Gen Cert.Adapter

/-- A block of 512 rows of x starting at row 512·T, all of A and all of d give, through the body, the entries of
    the hidden array in those rows. -/
theorem hidden_of_block (x : Mat 8192 4096) (A : Mat 256 4096) (d : Mat 1 256)
    (xb : FVec Ideal S512x4096 .f32) (ab : FVec Ideal S256x4096 .bf16) (db : FVec Ideal S1x256 .f32) (T : ℕ)
    (hx : ∀ (y : S512x4096.Idx) (i : S8192x4096.Idx), (i 0).val = T * 512 + (y 0).val → (i 1).val = (y 1).val → xb y = x i)
    (ha : ∀ y : S256x4096.Idx, ab y = A y)
    (hd : ∀ y : S1x256.Idx, db y = d y)
    (j : S512x256.Idx) (i : S8192x256.Idx) (h0 : (i 0).val = T * 512 + (j 0).val) (h1 : (i 1).val = (j 1).val) :
    k0_pay1 (F := Ideal) xb ab db j = hidden x A d i := by
  obtain ⟨p, r, rfl⟩ : ∃ (p : Fin 512) (r : Fin 256), j = ix2 p r := ⟨j 0, j 1, eq_ix2 j⟩
  obtain ⟨P, R, rfl⟩ : ∃ (P : Fin 8192) (R : Fin 256), i = ix2 P R := ⟨i 0, i 1, eq_ix2 i⟩
  have hR : R = r := Fin.ext h1
  subst hR
  rw [Payload.hidden_block_apply, hidden_apply]
  unfold hiddenAt
  rw [hd]
  refine congrArg (· * d (ix2 (0 : Fin 1) R)) (Finset.sum_congr rfl fun k _ => ?_)
  rw [hx (ix2 p k) (ix2 P k) h0 rfl, ha]

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the blocks of x and of the output move down with the point, A and d stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the hidden array of the arrays the region finds. -/
theorem flushed_eq (c : Dev nD) (t : Fin cfg0.N) :
    (dat0 V c).flushed 3 t
      = ((cfg0.win 3).blk t).view.read (Elt Ideal) (hidden (V c main_arg0) (V c main_v1) (V c main_v5)) := by
  show (cfg0.win 3).cut (grid0.coords t) ((dat0 V c).after 3 t) = _
  rw [after0_3]
  unfold out0_3
  rw [View.canon_unit_zero origin]
  simp only [View.ld_unit_zero (S := S512x4096) origin, View.ld_unit_zero (S := S256x4096) origin,
    View.ld_unit_zero (S := S1x256) origin]
  obtain ⟨e00, e01, e10, e11, e20, e21, e30, e31⟩ := index_facts t
  funext j
  show k0_pay1 (F := Ideal) (iblk0 V c 0 t) (iblk0 V c 1 t) (iblk0 V c 2 t) j
    = hidden (V c main_arg0) (V c main_v1) (V c main_v5) (((cfg0.win 3).blk t).view.emb j)
  refine hidden_of_block (V c main_arg0) (V c main_v1) (V c main_v5) (iblk0 V c 0 t) (iblk0 V c 1 t) (iblk0 V c 2 t)
    t.val ?_ ?_ ?_ j _ ?_ ?_
  · intro y i h0 h1
    show V c main_arg0 (((cfg0.win 0).blk t).view.emb y) = V c main_arg0 i
    refine congrArg _ (funext fun a => Fin.ext ?_)
    match a with
    | ⟨0, _⟩ => show win0_0.index t (0 : Fin 2) * 512 + 1 * (y 0).val = (i 0).val; omega
    | ⟨1, _⟩ => show win0_0.index t (1 : Fin 2) * 4096 + 1 * (y 1).val = (i 1).val; omega
  · intro y
    show V c main_v1 (((cfg0.win 1).blk t).view.emb y) = V c main_v1 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 4096 + 1 * (y 1).val = (y 1).val; omega
  · intro y
    show V c main_v5 (((cfg0.win 2).blk t).view.emb y) = V c main_v5 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 256 + 1 * (y 1).val = (y 1).val; omega
  · show win0_3.index t (0 : Fin 2) * 512 + 1 * (j 0).val = t.val * 512 + (j 0).val; omega
  · show win0_3.index t (1 : Fin 2) * 256 + 1 * (j 1).val = (j 1).val; omega

/-- An entry of the output array lies in point t's block when each coordinate lies in the block's range. -/
theorem mem_block (t : Fin cfg0.N) (i : S8192x256.Idx) :
    i ∈ ((cfg0.win 3).blk t).view.set
      ↔ ∀ a : Fin 2, win0_3.index t a * S512x256.size a ≤ (i a).val ∧ (i a).val < win0_3.index t a * S512x256.size a + S512x256.size a := by
  show i ∈ ((View.whole main_v6).slice (win0_3.rect t)).set ↔ _
  rw [View.set_slice_whole, Rect.mem_set_unit]
  exact Iff.rfl

/-- Every entry of the output array is written back by the point that holds its row. -/
theorem covered (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  have hN := N_0
  let t : Fin cfg0.N := ⟨(i 0).val / 512, by show (i 0).val / 512 < grid0.N; omega⟩
  obtain ⟨e00, e01, e10, e11, e20, e21, e30, e31⟩ := index_facts t
  have ht : t.val = (i 0).val / 512 := rfl
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-- After the region its output array is the hidden array of the arrays it found. -/
theorem final (c : Dev nD) :
    (dat0 V c).arrAt 3 cfg0.N = hidden (V c main_arg0) (V c main_v1) (V c main_v5) :=
  (dat0 V c).arrAt_eq_of_cover 3 _ (fun t _ => flushed_eq V c t) covered

end Cert.KernelIdeal.HiddenRegion

end
-- ==== Proof.Region1.lean ====
/-
  The second kernel region: the array it leaves is the result array of the arrays it finds.

  The region walks the result in 2 bands of 2048 columns and, inside each band, 32 blocks of 256 rows; point t is
  band t / 32, row block t % 32. There it reads rows 256·(t % 32) … of x and of the hidden array, rows
  2048·(t / 32) … of W and of B, columns 2048·(t / 32) … of the one-row bias and of the one-row b, and writes back
  the 256 × 2048 block of the result at that place. Entry (p, q) of what it writes is the entry of the result array
  at row 256·(t % 32) + p and column 2048·(t / 32) + q. The 64 blocks cover the result.
-/
import proofs.«108059_j52836687675852_1_alg».proof.Proof.Gen.KernelIdeal.Frame
import proofs.«108059_j52836687675852_1_alg».proof.Proof.Payload
import proofs.«108059_j52836687675852_1_alg».proof.Proof.Spec
import Idealize.ShloMosaic.Lib.Pipeline.Value

set_option maxRecDepth 16384

noncomputable section

open scoped BigOperators

namespace Cert.KernelIdeal.OutRegion

open Idealize.ShloMosaic Idealize.ShloMosaic.TcCoe Idealize.ShloMosaic.ValueIdx Idealize.SL.Sem
open Cert.KernelIdeal Cert.KernelIdeal.Gen Cert.Adapter

/-- Blocks of x and of the hidden array starting at row 256·M, blocks of W and of B starting at row 2048·N, and the
    one-row bias and b from column 2048·N give, through the body, the entries of the result in those rows and columns. -/
theorem out_of_block (x : Mat 8192 4096) (W : Mat 4096 4096) (h : Mat 8192 256) (B : Mat 4096 256) (bias b : Mat 1 4096)
    (xb : FVec Ideal S256x4096 .f32) (wb : FVec Ideal S2048x4096 .bf16) (hb : FVec Ideal S256x256 .f32)
    (bb : FVec Ideal S2048x256 .bf16) (bvb biasb : FVec Ideal S1x2048 .f32) (M N : ℕ)
    (hx : ∀ (y : S256x4096.Idx) (i : S8192x4096.Idx), (i 0).val = M * 256 + (y 0).val → (i 1).val = (y 1).val → xb y = x i)
    (hw : ∀ (y : S2048x4096.Idx) (i : S4096x4096.Idx), (i 0).val = N * 2048 + (y 0).val → (i 1).val = (y 1).val → wb y = W i)
    (hh : ∀ (y : S256x256.Idx) (i : S8192x256.Idx), (i 0).val = M * 256 + (y 0).val → (i 1).val = (y 1).val → hb y = h i)
    (hB : ∀ (y : S2048x256.Idx) (i : S4096x256.Idx), (i 0).val = N * 2048 + (y 0).val → (i 1).val = (y 1).val → bb y = B i)
    (hbv : ∀ (y : S1x2048.Idx) (i : S1x4096.Idx), (i 1).val = N * 2048 + (y 1).val → bvb y = b i)
    (hbias : ∀ (y : S1x2048.Idx) (i : S1x4096.Idx), (i 1).val = N * 2048 + (y 1).val → biasb y = bias i)
    (j : S256x2048.Idx) (i : S8192x4096.Idx) (h0 : (i 0).val = M * 256 + (j 0).val) (h1 : (i 1).val = N * 2048 + (j 1).val) :
    k1_pay1 (F := Ideal) xb wb hb bb bvb biasb j = out x W h B bias b i := by
  obtain ⟨p, q, rfl⟩ : ∃ (p : Fin 256) (q : Fin 2048), j = ix2 p q := ⟨j 0, j 1, eq_ix2 j⟩
  obtain ⟨P, Q, rfl⟩ : ∃ (P : Fin 8192) (Q : Fin 4096), i = ix2 P Q := ⟨i 0, i 1, eq_ix2 i⟩
  rw [Payload.out_block_apply, out_apply]
  unfold outAt
  rw [hbias (ix2 (0 : Fin 1) q) (ix2 (0 : Fin 1) Q) h1, hbv (ix2 (0 : Fin 1) q) (ix2 (0 : Fin 1) Q) h1]
  refine congrArg₂ (· + ·) (congrArg (· + bias (ix2 (0 : Fin 1) Q)) (Finset.sum_congr rfl fun k _ => ?_))
    (congrArg (· * b (ix2 (0 : Fin 1) Q)) (Finset.sum_congr rfl fun r _ => ?_))
  · rw [hx (ix2 p k) (ix2 P k) h0 rfl, hw (ix2 q k) (ix2 Q k) h1 rfl]
  · rw [hh (ix2 p r) (ix2 P r) h0 rfl, hB (ix2 q r) (ix2 Q r) h1 rfl]

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: x, the hidden array and the result's rows follow the row block t % 32; W, B,
    the two one-row vectors and the result's columns follow the band t / 32. -/
theorem index_facts : ∀ t : Fin cfg1.N,
    win1_0.index t (0 : Fin 2) = t.val % 32 ∧ win1_0.index t (1 : Fin 2) = 0
    ∧ win1_1.index t (0 : Fin 2) = t.val / 32 ∧ win1_1.index t (1 : Fin 2) = 0
    ∧ win1_2.index t (0 : Fin 2) = t.val % 32 ∧ win1_2.index t (1 : Fin 2) = 0
    ∧ win1_3.index t (0 : Fin 2) = t.val / 32 ∧ win1_3.index t (1 : Fin 2) = 0
    ∧ win1_4.index t (0 : Fin 2) = 0 ∧ win1_4.index t (1 : Fin 2) = t.val / 32
    ∧ win1_5.index t (0 : Fin 2) = 0 ∧ win1_5.index t (1 : Fin 2) = t.val / 32
    ∧ win1_6.index t (0 : Fin 2) = t.val % 32 ∧ win1_6.index t (1 : Fin 2) = t.val / 32 :=
  (by decide +kernel : ∀ t : Fin grid1.N, _)

/-- What point t writes back is block t of the result array of the arrays the region finds. -/
theorem flushed_eq (c : Dev nD) (t : Fin cfg1.N) :
    (dat1 V c).flushed 6 t
      = ((cfg1.win 6).blk t).view.read (Elt Ideal)
          (out (V c main_arg0) (V c main_v0) (V c main_v6) (V c main_v2) (V c main_v3) (V c main_v4)) := by
  show (cfg1.win 6).cut (grid1.coords t) ((dat1 V c).after 6 t) = _
  rw [after1_6]
  unfold out1_6
  rw [View.canon_unit_zero origin]
  simp only [View.ld_unit_zero (S := S256x4096) origin, View.ld_unit_zero (S := S2048x4096) origin,
    View.ld_unit_zero (S := S256x256) origin, View.ld_unit_zero (S := S2048x256) origin,
    View.ld_unit_zero (S := S1x2048) origin]
  obtain ⟨e00, e01, e10, e11, e20, e21, e30, e31, e40, e41, e50, e51, e60, e61⟩ := index_facts t
  funext j
  show k1_pay1 (F := Ideal) (iblk1 V c 0 t) (iblk1 V c 1 t) (iblk1 V c 2 t) (iblk1 V c 3 t) (iblk1 V c 5 t) (iblk1 V c 4 t) j
    = out (V c main_arg0) (V c main_v0) (V c main_v6) (V c main_v2) (V c main_v3) (V c main_v4) (((cfg1.win 6).blk t).view.emb j)
  refine out_of_block (V c main_arg0) (V c main_v0) (V c main_v6) (V c main_v2) (V c main_v3) (V c main_v4)
    (iblk1 V c 0 t) (iblk1 V c 1 t) (iblk1 V c 2 t) (iblk1 V c 3 t) (iblk1 V c 5 t) (iblk1 V c 4 t)
    (t.val % 32) (t.val / 32) ?_ ?_ ?_ ?_ ?_ ?_ j _ ?_ ?_
  · intro y i h0 h1
    show V c main_arg0 (((cfg1.win 0).blk t).view.emb y) = V c main_arg0 i
    refine congrArg _ (funext fun a => Fin.ext ?_)
    match a with
    | ⟨0, _⟩ => show win1_0.index t (0 : Fin 2) * 256 + 1 * (y 0).val = (i 0).val; omega
    | ⟨1, _⟩ => show win1_0.index t (1 : Fin 2) * 4096 + 1 * (y 1).val = (i 1).val; omega
  · intro y i h0 h1
    show V c main_v0 (((cfg1.win 1).blk t).view.emb y) = V c main_v0 i
    refine congrArg _ (funext fun a => Fin.ext ?_)
    match a with
    | ⟨0, _⟩ => show win1_1.index t (0 : Fin 2) * 2048 + 1 * (y 0).val = (i 0).val; omega
    | ⟨1, _⟩ => show win1_1.index t (1 : Fin 2) * 4096 + 1 * (y 1).val = (i 1).val; omega
  · intro y i h0 h1
    show V c main_v6 (((cfg1.win 2).blk t).view.emb y) = V c main_v6 i
    refine congrArg _ (funext fun a => Fin.ext ?_)
    match a with
    | ⟨0, _⟩ => show win1_2.index t (0 : Fin 2) * 256 + 1 * (y 0).val = (i 0).val; omega
    | ⟨1, _⟩ => show win1_2.index t (1 : Fin 2) * 256 + 1 * (y 1).val = (i 1).val; omega
  · intro y i h0 h1
    show V c main_v2 (((cfg1.win 3).blk t).view.emb y) = V c main_v2 i
    refine congrArg _ (funext fun a => Fin.ext ?_)
    match a with
    | ⟨0, _⟩ => show win1_3.index t (0 : Fin 2) * 2048 + 1 * (y 0).val = (i 0).val; omega
    | ⟨1, _⟩ => show win1_3.index t (1 : Fin 2) * 256 + 1 * (y 1).val = (i 1).val; omega
  · intro y i h1
    show V c main_v4 (((cfg1.win 5).blk t).view.emb y) = V c main_v4 i
    refine congrArg _ (funext fun a => Fin.ext ?_)
    have hy0 : (y 0).val < 1 := (y 0).isLt
    have hi0 : (i 0).val < 1 := (i 0).isLt
    match a with
    | ⟨0, _⟩ => show win1_5.index t (0 : Fin 2) * 1 + 1 * (y 0).val = (i 0).val; omega
    | ⟨1, _⟩ => show win1_5.index t (1 : Fin 2) * 2048 + 1 * (y 1).val = (i 1).val; omega
  · intro y i h1
    show V c main_v3 (((cfg1.win 4).blk t).view.emb y) = V c main_v3 i
    refine congrArg _ (funext fun a => Fin.ext ?_)
    have hy0 : (y 0).val < 1 := (y 0).isLt
    have hi0 : (i 0).val < 1 := (i 0).isLt
    match a with
    | ⟨0, _⟩ => show win1_4.index t (0 : Fin 2) * 1 + 1 * (y 0).val = (i 0).val; omega
    | ⟨1, _⟩ => show win1_4.index t (1 : Fin 2) * 2048 + 1 * (y 1).val = (i 1).val; omega
  · show win1_6.index t (0 : Fin 2) * 256 + 1 * (j 0).val = t.val % 32 * 256 + (j 0).val; omega
  · show win1_6.index t (1 : Fin 2) * 2048 + 1 * (j 1).val = t.val / 32 * 2048 + (j 1).val; omega

/-- An entry of the result array lies in point t's block when each coordinate lies in the block's range. -/
theorem mem_block (t : Fin cfg1.N) (i : S8192x4096.Idx) :
    i ∈ ((cfg1.win 6).blk t).view.set
      ↔ ∀ a : Fin 2, win1_6.index t a * S256x2048.size a ≤ (i a).val ∧ (i a).val < win1_6.index t a * S256x2048.size a + S256x2048.size a := by
  show i ∈ ((View.whole main_v7).slice (win1_6.rect t)).set ↔ _
  rw [View.set_slice_whole, Rect.mem_set_unit]
  exact Iff.rfl

/-- Every entry of the result array is written back by the point that holds its row block and its band. -/
theorem covered (i : S8192x4096.Idx) :
    ∃ t : Fin cfg1.N, (cfg1.win 6).flush t = true ∧ i ∈ ((cfg1.win 6).blk t).view.set := by
  have hi0 : (i 0).val < 8192 := (i 0).isLt
  have hi1 : (i 1).val < 4096 := (i 1).isLt
  have hN := N_1
  let t : Fin cfg1.N := ⟨(i 1).val / 2048 * 32 + (i 0).val / 256, by show (i 1).val / 2048 * 32 + (i 0).val / 256 < grid1.N; omega⟩
  obtain ⟨e00, e01, e10, e11, e20, e21, e30, e31, e40, e41, e50, e51, e60, e61⟩ := index_facts t
  have ht : t.val = (i 1).val / 2048 * 32 + (i 0).val / 256 := rfl
  refine ⟨t, flush1_6 t, ?_⟩
  rw [mem_block]
  intro a
  match a with
  | ⟨0, _⟩ => show win1_6.index t (0 : Fin 2) * 256 ≤ (i 0).val ∧ (i 0).val < win1_6.index t (0 : Fin 2) * 256 + 256; omega
  | ⟨1, _⟩ => show win1_6.index t (1 : Fin 2) * 2048 ≤ (i 1).val ∧ (i 1).val < win1_6.index t (1 : Fin 2) * 2048 + 2048; omega

/-- After the region its output array is the result array of the arrays it found. -/
theorem final (c : Dev nD) :
    (dat1 V c).arrAt 6 cfg1.N
      = out (V c main_arg0) (V c main_v0) (V c main_v6) (V c main_v2) (V c main_v3) (V c main_v4) :=
  (dat1 V c).arrAt_eq_of_cover 6 _ (fun t _ => flushed_eq V c t) covered

end Cert.KernelIdeal.OutRegion

end
-- ==== Proof.Boundary.lean ====
/-
  The result's buffer after the whole run, read back to the memory the run started from.

  Before the first region the host narrows W, A and B to the short float format, which changes nothing on the extended
  reals, and casts the three vectors to matrices of one row. The first region then finds x, A and d as launched and
  leaves the hidden array in its output; nothing else is written. The second region finds x, W, B and the one-row bias
  and b as they were before the first region, and the hidden array where the first region left it; it leaves the result
  array of those. So the result's buffer ends holding the adapter layer of the seven arrays as launched.
-/
import proofs.«108059_j52836687675852_1_alg».proof.Proof.Gen.KernelIdeal.Frame
import proofs.«108059_j52836687675852_1_alg».proof.Proof.Region0
import proofs.«108059_j52836687675852_1_alg».proof.Proof.Region1
import Idealize.ShloMosaic.Lib.StableHlo.Run

set_option maxRecDepth 16384

noncomputable section

namespace Cert.KernelIdeal.Boundary

open Idealize.ShloMosaic Idealize.ShloMosaic.TcCoe Idealize.ShloMosaic.ValueIdx Idealize.SL.Sem Idealize.ShloMosaic.StableHlo
open Cert.KernelIdeal Cert.KernelIdeal.Gen Cert.Adapter

variable (m : (ℓ : Loc nD τ sig) → Buf (Elt Ideal) ℓ) (ρ : Dev nD → PrngReg)

/-! ## What the first region finds -/

theorem entry0_x (c : Dev nD) : V1 m ρ c main_arg0 = m ((c : Thread nD τ).loc main_arg0) := by
  show StableHlo.after hostOps0 (W0 m ρ c) (Proc.devRef .tc main_arg0) = _
  after_results

theorem entry0_W (c : Dev nD) : (V1 m ρ c main_v0 : S4096x4096.Idx → EReal) = m ((c : Thread nD τ).loc main_arg1) := by
  show StableHlo.after hostOps0 (W0 m ρ c) (Proc.devRef .tc main_v0) = _
  after_results
  rfl

theorem entry0_A (c : Dev nD) : (V1 m ρ c main_v1 : S256x4096.Idx → EReal) = m ((c : Thread nD τ).loc main_arg3) := by
  show StableHlo.after hostOps0 (W0 m ρ c) (Proc.devRef .tc main_v1) = _
  after_results
  rfl

theorem entry0_B (c : Dev nD) : (V1 m ρ c main_v2 : S4096x256.Idx → EReal) = m ((c : Thread nD τ).loc main_arg4) := by
  show StableHlo.after hostOps0 (W0 m ρ c) (Proc.devRef .tc main_v2) = _
  after_results
  rfl

theorem entry0_bias (c : Dev nD) : (V1 m ρ c main_v3 : S1x4096.Idx → EReal) = asRow (m ((c : Thread nD τ).loc main_arg2)) := by
  show StableHlo.after hostOps0 (W0 m ρ c) (Proc.devRef .tc main_v3) = _
  after_results
  exact shapeCast_eq_asRow _ _

theorem entry0_b (c : Dev nD) : (V1 m ρ c main_v4 : S1x4096.Idx → EReal) = asRow (m ((c : Thread nD τ).loc main_arg5)) := by
  show StableHlo.after hostOps0 (W0 m ρ c) (Proc.devRef .tc main_v4) = _
  after_results
  exact shapeCast_eq_asRow _ _

theorem entry0_d (c : Dev nD) : (V1 m ρ c main_v5 : S1x256.Idx → EReal) = asRow (m ((c : Thread nD τ).loc main_arg6)) := by
  show StableHlo.after hostOps0 (W0 m ρ c) (Proc.devRef .tc main_v5) = _
  after_results
  exact shapeCast_eq_asRow _ _

/-! ## What the second region finds -/

theorem entry1_x (c : Dev nD) : V2 m ρ c main_arg0 = V1 m ρ c main_arg0 :=
  (W2_arr m ρ c 0).trans (((dat0 (V1 m ρ) c).arrAt_in 0 rfl _).trans (A_eq0 (V1 m ρ) c 0))

theorem entry1_W (c : Dev nD) : V2 m ρ c main_v0 = V1 m ρ c main_v0 := W2_of_ne m ρ c main_v0 (by decide)
theorem entry1_B (c : Dev nD) : V2 m ρ c main_v2 = V1 m ρ c main_v2 := W2_of_ne m ρ c main_v2 (by decide)
theorem entry1_bias (c : Dev nD) : V2 m ρ c main_v3 = V1 m ρ c main_v3 := W2_of_ne m ρ c main_v3 (by decide)
theorem entry1_b (c : Dev nD) : V2 m ρ c main_v4 = V1 m ρ c main_v4 := W2_of_ne m ρ c main_v4 (by decide)

/-- The hidden array's buffer holds what the first region left. -/
theorem entry1_h (c : Dev nD) :
    (V2 m ρ c main_v6 : S8192x256.Idx → EReal)
      = hidden (m ((c : Thread nD τ).loc main_arg0)) (m ((c : Thread nD τ).loc main_arg3)) (asRow (m ((c : Thread nD τ).loc main_arg6))) := by
  refine ((W2_arr m ρ c 3).trans (HiddenRegion.final (V1 m ρ) c)).trans ?_
  rw [entry0_x, entry0_A, entry0_d]

/-! ## The result -/

/-- The result's buffer after the run holds the adapter layer of the arrays as launched. -/
theorem result (c : Dev nD) :
    (W3 m ρ c (Proc.devRef .tc main_v7) : S8192x4096.Idx → EReal)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine ((W3_arr m ρ c 6).trans (OutRegion.final (V2 m ρ) c)).trans ?_
  rw [entry1_h, entry1_x, entry1_W, entry1_B, entry1_bias, entry1_b, entry0_x, entry0_W, entry0_B, entry0_bias, entry0_b]
  rfl

end Cert.KernelIdeal.Boundary

end
-- ==== Proof.RefValue.lean ====
/-
  The reference computes the adapter layer.

  Read one operation at a time, entry (P, Q) of the reference's result is the product of x with the transpose of W at
  (P, Q) plus entry Q of bias, plus entry Q of b times the product, at (P, Q), of the scaled projection with the
  transpose of B; the scaled projection at (P, r) is the product of x with the transpose of A at (P, r) times entry r
  of d. A transpose read at (k, Q) is the matrix read at (Q, k), and a vector broadcast to one row and then down the
  rows is read at its column. With the indices so identified this is the layer's entry, term for term.
-/
import proofs.«108059_j52836687675852_1_alg».proof.Proof.Gen.ReferenceIdeal.Read
import proofs.«108059_j52836687675852_1_alg».proof.Proof.Spec

noncomputable section

open scoped BigOperators

namespace Cert.ReferenceIdeal.RefValue

open Idealize.ShloMosaic Idealize.ShloMosaic.ValueIdx Cert.ReferenceIdeal Cert.ReferenceIdeal.Read Cert.Adapter

/-- An index of a matrix is the pair of its coordinates. -/
theorem pair_eq {a b : ℕ} (f : (⟨2, ![a, b]⟩ : Shape).Idx) (p : Fin a) (q : Fin b) (h0 : (f 0).val = p.val)
    (h1 : (f 1).val = q.val) : f = ix2 p q :=
  funext fun d => Fin.ext (by match d with | ⟨0, _⟩ => exact h0 | ⟨1, _⟩ => exact h1)

/-- An index of a vector is its coordinate. -/
theorem single_eq {n : ℕ} (f : (⟨1, ![n]⟩ : Shape).Idx) (q : Fin n) (h : (f 0).val = q.val) : f = ix1 q :=
  funext fun d => Fin.ext (by match d with | ⟨0, _⟩ => exact h)

/-- The reference's last stage is the adapter layer of its seven arguments. -/
theorem reference_eq (x0 : FVec Ideal S8192x4096 .f32) (x1 : FVec Ideal S4096x4096 .f32) (x2 : FVec Ideal S4096 .f32)
    (x3 : FVec Ideal S256x4096 .f32) (x4 : FVec Ideal S4096x256 .f32) (x5 : FVec Ideal S4096 .f32) (x6 : FVec Ideal S256 .f32) :
    val_main_v15 (F := Ideal) x0 x1 x2 x3 x4 x5 x6 = layer x0 x1 x2 x3 x4 x5 x6 := by
  funext i
  obtain ⟨P, Q, rfl⟩ : ∃ (P : Fin 8192) (Q : Fin 4096), i = ix2 P Q := ⟨i 0, i 1, eq_ix2 i⟩
  have e1 : ∀ k : Fin 4096, lidx_main_v1 (ix2 P Q) k = ix2 P k := fun k => pair_eq _ _ _ rfl rfl
  have e2 : ∀ k : Fin 4096, idx_main_v0 (ridx_main_v1 (ix2 P Q) k) = ix2 Q k := fun k => pair_eq _ _ _ rfl rfl
  have e3 : idx_main_v2 (idx_main_v3 (ix2 P Q)) = ix1 Q := single_eq _ _ rfl
  have e4 : ∀ (r : Fin 256) (k : Fin 4096), lidx_main_v6 (lidx_main_v11 (ix2 P Q) r) k = ix2 P k := fun r k => pair_eq _ _ _ rfl rfl
  have e5 : ∀ (r : Fin 256) (k : Fin 4096), idx_main_v5 (ridx_main_v6 (lidx_main_v11 (ix2 P Q) r) k) = ix2 r k := fun r k => pair_eq _ _ _ rfl rfl
  have e6 : ∀ r : Fin 256, idx_main_v7 (idx_main_v8 (lidx_main_v11 (ix2 P Q) r)) = ix1 r := fun r => single_eq _ _ rfl
  have e7 : ∀ r : Fin 256, idx_main_v10 (ridx_main_v11 (ix2 P Q) r) = ix2 Q r := fun r => pair_eq _ _ _ rfl rfl
  have e8 : idx_main_v12 (idx_main_v13 (ix2 P Q)) = ix1 Q := single_eq _ _ rfl
  simp only [val_main_v15_apply, val_main_v4_apply, val_main_v14_apply, val_main_v1_apply, val_main_v0_apply,
    val_main_v3_apply, val_main_v2_apply, val_main_v11_apply, val_main_v9_apply, val_main_v6_apply, val_main_v5_apply,
    val_main_v8_apply, val_main_v7_apply, val_main_v10_apply, val_main_v13_apply, val_main_v12_apply,
    e1, e2, e3, e4, e5, e6, e7, e8]
  rfl

end Cert.ReferenceIdeal.RefValue

end
-- ==== Proof.lean ====
/-
  A frozen affine layer with a low-rank correction, computed by two kernels, against its plain definition.

  The kernel program first computes the hidden array h = (x·Aᵀ)·d, in 16 blocks of rows, and then the result
  (x·Wᵀ + bias) + (h·Bᵀ)·b in 64 blocks, with W, A and B narrowed to a shorter float format on the way. The reference
  computes orig = x·Wᵀ + bias, h = (x·Aᵀ)·d, delta = (h·Bᵀ)·b and returns orig + delta over the whole arrays. On the
  extended reals a change of float format is the identity and a product on the matrix unit into a zero accumulator is
  the plain sum of products, so both programs return, entry by entry, the same expression in the same grouping
  (the function `Cert.Adapter.layer`): no law beyond reading each operation at an entry is used, and the
  precondition that the inputs are finite is not needed.

  The kernel program's result array is read off its run region by region: what each grid point writes back is a
  block of the region's function of the arrays the region finds, the blocks cover the array, and the arrays the
  second region finds are the launch arrays and what the first region left. The reference's result is read one
  operation at a time. The ideal pass rewrote nothing, so the kernel's idealization is its own text.
-/
import proofs.«108059_j52836687675852_1_alg».proof.Defs
import proofs.«108059_j52836687675852_1_alg».proof.Proof.Gen.Kernel
import proofs.«108059_j52836687675852_1_alg».proof.Proof.Gen.Kernel.Skeleton
import proofs.«108059_j52836687675852_1_alg».proof.Proof.Gen.Kernel.Launch
import proofs.«108059_j52836687675852_1_alg».proof.Proof.Gen.Kernel.Points
import proofs.«108059_j52836687675852_1_alg».proof.Proof.Gen.Kernel.Frame
import proofs.«108059_j52836687675852_1_alg».proof.Proof.Gen.KernelIdeal
import proofs.«108059_j52836687675852_1_alg».proof.Proof.Gen.KernelIdeal.Skeleton
import proofs.«108059_j52836687675852_1_alg».proof.Proof.Gen.KernelIdeal.Launch
import proofs.«108059_j52836687675852_1_alg».proof.Proof.Gen.KernelIdeal.Points
import proofs.«108059_j52836687675852_1_alg».proof.Proof.Gen.KernelIdeal.Frame
import proofs.«108059_j52836687675852_1_alg».proof.Proof.Gen.ReferenceIdeal
import proofs.«108059_j52836687675852_1_alg».proof.Proof.Gen.Pre_finite_inputs
import proofs.«108059_j52836687675852_1_alg».proof.Proof.Gen.ReferenceIdeal.Run
import proofs.«108059_j52836687675852_1_alg».proof.Proof.Gen.ReferenceIdeal.Read
import proofs.«108059_j52836687675852_1_alg».proof.Proof.KernelRun
import proofs.«108059_j52836687675852_1_alg».proof.Proof.Boundary
import proofs.«108059_j52836687675852_1_alg».proof.Proof.RefValue
import Idealize.ShloMosaic.Adequacy
import Idealize.ShloMosaic.Init

noncomputable section

namespace Cert.Proof

open Idealize.ShloMosaic Idealize.ShloMosaic.TcCoe Idealize.SL.Sem

/-- The kernel program, word for word, runs to the end and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference has no kernel: its run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- Both programs end with the adapter layer of the arguments in their result array. -/
theorem algebraic : Cert.algebraic_KernelIdeal_ReferenceIdeal := by
  intro m ρ m' ρ' _ hagree
  refine ⟨fun c => Cert.Adapter.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Boundary.result m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    rw [a0, a1, a2, a3, a4, a5, a6]
    exact (Cert.ReferenceIdeal.Read.val_main_v15_eq _ _ _ _ _ _ _).trans
      (Cert.ReferenceIdeal.RefValue.reference_eq _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
